-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x384x56x56 : Shape := ⟨4, ![16, 384, 56, 56]⟩
abbrev S1024x384 : Shape := ⟨2, ![1024, 384]⟩
abbrev S_ : Shape := ⟨0, ![]⟩

class Facts : Prop where
  bcast_S_S16x384x56x56 : S_.BroadcastsInDim S16x384x56x56 (![] : Fin 0 → Fin S16x384x56x56.rank)
  reducesTo_S16x384x56x56_S_d0_1_2_3 : S16x384x56x56.ReducesTo [0, 1, 2, 3] S_
  h_S_ : 0 < S_.numel
  bcast_S_S1024x384 : S_.BroadcastsInDim S1024x384 (![] : Fin 0 → Fin S1024x384.rank)
  reducesTo_S1024x384_S_d0_1 : S1024x384.ReducesTo [0, 1] S_

variable [Facts]

def fn {F : FTy → Type} [FloatOps F] (main_arg0 : FVec F S16x384x56x56 .f32) (main_arg1 : FVec F S1024x384 .f32) : IVec S_ 1 :=
  let main_v0 : FVec F S16x384x56x56 .f32 := Host.absf main_arg0
  let main_cst : FVec F S_ .f32 := constant S_ .f32 0x7F800000#32
  let main_v1 : FVec F S16x384x56x56 .f32 := broadcastInDim S16x384x56x56 ![] bcast_S_S16x384x56x56 main_cst
  let main_v2 : IVec S16x384x56x56 1 := cmpf .olt main_v0 main_v1
  let main_c : IVec S_ 1 := constantI S_ 1 1#1
  let main_v3 : IVec S_ 1 := (fun x v => Host.reduce IntOp.andi x v reducesTo_S16x384x56x56_S_d0_1_2_3 h_S_) main_v2 main_c
  let main_v4 : FVec F S1024x384 .f32 := Host.absf main_arg1
  let main_cst_0 : FVec F S_ .f32 := constant S_ .f32 0x7F800000#32
  let main_v5 : FVec F S1024x384 .f32 := broadcastInDim S1024x384 ![] bcast_S_S1024x384 main_cst_0
  let main_v6 : IVec S1024x384 1 := cmpf .olt main_v4 main_v5
  let main_c_1 : IVec S_ 1 := constantI S_ 1 1#1
  let main_v7 : IVec S_ 1 := (fun x v => Host.reduce IntOp.andi x v reducesTo_S1024x384_S_d0_1 h_S_) main_v6 main_c_1
  let main_v8 : IVec S_ 1 := andi main_v3 main_v7
  main_v8
-- ==== Kernel.lean ====
abbrev S16x384x56x56 : Shape := ⟨4, ![16, 384, 56, 56]⟩
abbrev S1024x384 : Shape := ⟨2, ![1024, 384]⟩
abbrev S16x56x56x384 : Shape := ⟨4, ![16, 56, 56, 384]⟩
abbrev S50176x384 : Shape := ⟨2, ![50176, 384]⟩
abbrev S50176x1024 : Shape := ⟨2, ![50176, 1024]⟩
abbrev S512x384 : Shape := ⟨2, ![512, 384]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S16x56x56x1024 : Shape := ⟨4, ![16, 56, 56, 1024]⟩
abbrev S16x1024x56x56 : Shape := ⟨4, ![16, 1024, 56, 56]⟩

abbrev nBuf : Space → Nat
  | .hbm => 12
  | .vmem => 9
  | .smem => 0
  | _ => 0

abbrev bufTy : (tb : Table) → Fin (tcTables nBuf tb) → BufTy
  | .hbm, ⟨0, _⟩ => ⟨S16x384x56x56, .f32⟩
  | .hbm, ⟨1, _⟩ => ⟨S1024x384, .f32⟩
  | .hbm, ⟨2, _⟩ => ⟨S16x56x56x384, .f32⟩
  | .hbm, ⟨3, _⟩ => ⟨S50176x384, .f32⟩
  | .hbm, ⟨4, _⟩ => ⟨S50176x1024, .f32⟩
  | .hbm, ⟨5, _⟩ => ⟨S50176x1024, .f32⟩
  | .hbm, ⟨6, _⟩ => ⟨S50176x384, .f32⟩
  | .hbm, ⟨7, _⟩ => ⟨S16x56x56x384, .f32⟩
  | .hbm, ⟨8, _⟩ => ⟨S16x56x56x384, .f32⟩
  | .hbm, ⟨9, _⟩ => ⟨S16x384x56x56, .f32⟩
  | .hbm, ⟨10, _⟩ => ⟨S16x56x56x1024, .f32⟩
  | .hbm, ⟨11, _⟩ => ⟨S16x1024x56x56, .f32⟩
  | .local _ .vmem, ⟨0, _⟩ => ⟨S512x384, .f32⟩
  | .local _ .vmem, ⟨1, _⟩ => ⟨S512x384, .f32⟩
  | .local _ .vmem, ⟨2, _⟩ => ⟨S1024x384, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x384, .f32⟩
  | .local _ .vmem, ⟨8, _⟩ => ⟨S512x384, .f32⟩
  | _, _ => ⟨S16x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16x384x56x56_S16x56x56x384_0_2_3_1 : S16x384x56x56.Transposes [0, 2, 3, 1] S16x56x56x384
  shapeCasts_S16x56x56x384_S50176x384 : S16x56x56x384.ShapeCasts S50176x384
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S1024x384_S1024x384_0_0 : ∀ a, (![0, 0] : Fin 2 → Nat) a + S1024x384.size a ≤ S1024x384.size a
  h_S1024x384 : 0 < S1024x384.numel
  bitsLt_bf16_f32 : FTy.bits .bf16 < FTy.bits .f32
  reduces_S512x384_S512 : S512x384.Reduces [1] S512
  shapeCasts_S512_S512x1 : S512.ShapeCasts S512x1
  reduces_S1024x384_S1024 : S1024x384.Reduces [1] S1024
  shapeCasts_S1024_S1x1024 : S1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S50176x384_S16x56x56x384 : S50176x384.ShapeCasts S16x56x56x384
  transposes_S16x56x56x384_S16x384x56x56_0_3_1_2 : S16x56x56x384.Transposes [0, 3, 1, 2] S16x384x56x56
  shapeCasts_S50176x1024_S16x56x56x1024 : S50176x1024.ShapeCasts S16x56x56x1024
  transposes_S16x56x56x1024_S16x1024x56x56_0_3_1_2 : S16x56x56x1024.Transposes [0, 3, 1, 2] S16x1024x56x56
  dot_S512x384_S1024x384_S512x1024_1_1_0_0_n_n_wf : DotDims.WF S512x384 S1024x384 S512x1024 [1] [1] [0] [0] [] []
  dot_S512x1024_S1024x384_S512x384_1_0_0_1_n_n_wf : DotDims.WF S512x1024 S1024x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S50176x384.size a
  hwx0_0 : ∀ i : grid0.Coords, EltTy.bits .f32 = 32 ∨ (Rect.block (s := S50176x384) S512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S50176x1024.size a
  hwx0_2 : ∀ i : grid0.Coords, EltTy.bits .f32 = 32 ∨ (Rect.block (s := S50176x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S50176x1024.size a
  hwx0_3 : ∀ i : grid0.Coords, EltTy.bits .f32 = 32 ∨ (Rect.block (s := S50176x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x384.size a ≤ S50176x384.size a
  hwx0_4 : ∀ i : grid0.Coords, EltTy.bits .f32 = 32 ∨ (Rect.block (s := S50176x384) S512x384.size (cc0_transform_4 i) (hinb0_4 i)).WholeWords (EltTy.packing .f32)

variable [Facts₀]

def dot_S512x384_S1024x384_S512x1024_1_1_0_0_n_n : DotDims S512x384 S1024x384 S512x1024 where
  lhsContracting := [1]
  rhsContracting := [1]
  lhsNonContracting := [0]
  rhsNonContracting := [0]
  lhsBatch := []
  rhsBatch := []
  wf := dot_S512x384_S1024x384_S512x1024_1_1_0_0_n_n_wf
def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf

abbrev win0_0 : Pipeline.Window sig grid0 :=
  Pipeline.Window.ofSpec (Memref.whole main_v1) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S512x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x384x56x56 : Shape := ⟨4, ![16, 384, 56, 56]⟩
abbrev S1024x384 : Shape := ⟨2, ![1024, 384]⟩
abbrev S16x56x56x384 : Shape := ⟨4, ![16, 56, 56, 384]⟩
abbrev S50176x384 : Shape := ⟨2, ![50176, 384]⟩
abbrev S_ : Shape := ⟨0, ![]⟩
abbrev S50176 : Shape := ⟨1, ![50176]⟩
abbrev S50176x1 : Shape := ⟨2, ![50176, 1]⟩
abbrev S1024 : Shape := ⟨1, ![1024]⟩
abbrev S1x1024 : Shape := ⟨2, ![1, 1024]⟩
abbrev S50176x1024 : Shape := ⟨2, ![50176, 1024]⟩
abbrev S384x1024 : Shape := ⟨2, ![384, 1024]⟩
abbrev S16x56x56x1024 : Shape := ⟨4, ![16, 56, 56, 1024]⟩
abbrev S16x1024x56x56 : Shape := ⟨4, ![16, 1024, 56, 56]⟩

abbrev nBuf : Space → Nat
  | .hbm => 42
  | .vmem => 0
  | .smem => 0
  | _ => 0

abbrev bufTy : (tb : Table) → Fin (tcTables nBuf tb) → BufTy
  | .hbm, ⟨0, _⟩ => ⟨S16x384x56x56, .f32⟩
  | .hbm, ⟨1, _⟩ => ⟨S1024x384, .f32⟩
  | .hbm, ⟨2, _⟩ => ⟨S16x56x56x384, .f32⟩
  | .hbm, ⟨3, _⟩ => ⟨S50176x384, .f32⟩
  | .hbm, ⟨4, _⟩ => ⟨S50176x384, .f32⟩
  | .hbm, ⟨5, _⟩ => ⟨S_, .f32⟩
  | .hbm, ⟨6, _⟩ => ⟨S50176, .f32⟩
  | .hbm, ⟨7, _⟩ => ⟨S50176x1, .f32⟩
  | .hbm, ⟨8, _⟩ => ⟨S1024x384, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S50176x1024, .f32⟩
  | .hbm, ⟨13, _⟩ => ⟨S50176x1024, .f32⟩
  | .hbm, ⟨14, _⟩ => ⟨S50176x1024, .f32⟩
  | .hbm, ⟨15, _⟩ => ⟨S384x1024, .f32⟩
  | .hbm, ⟨16, _⟩ => ⟨S50176x1024, .f32⟩
  | .hbm, ⟨17, _⟩ => ⟨S_, .f32⟩
  | .hbm, ⟨18, _⟩ => ⟨S50176x1024, .f32⟩
  | .hbm, ⟨19, _⟩ => ⟨S50176x1024, .f32⟩
  | .hbm, ⟨20, _⟩ => ⟨S50176x1024, .f32⟩
  | .hbm, ⟨21, _⟩ => ⟨S50176x1024, .f32⟩
  | .hbm, ⟨22, _⟩ => ⟨S_, .f32⟩
  | .hbm, ⟨23, _⟩ => ⟨S50176, .f32⟩
  | .hbm, ⟨24, _⟩ => ⟨S_, .f32⟩
  | .hbm, ⟨25, _⟩ => ⟨S50176, .f32⟩
  | .hbm, ⟨26, _⟩ => ⟨S50176, .f32⟩
  | .hbm, ⟨27, _⟩ => ⟨S50176x1, .f32⟩
  | .hbm, ⟨28, _⟩ => ⟨S50176x1024, .f32⟩
  | .hbm, ⟨29, _⟩ => ⟨S50176x1024, .f32⟩
  | .hbm, ⟨30, _⟩ => ⟨S50176x1024, .f32⟩
  | .hbm, ⟨31, _⟩ => ⟨S_, .f32⟩
  | .hbm, ⟨32, _⟩ => ⟨S50176, .f32⟩
  | .hbm, ⟨33, _⟩ => ⟨S50176x1, .f32⟩
  | .hbm, ⟨34, _⟩ => ⟨S50176x1024, .f32⟩
  | .hbm, ⟨35, _⟩ => ⟨S50176x1024, .f32⟩
  | .hbm, ⟨36, _⟩ => ⟨S50176x384, .f32⟩
  | .hbm, ⟨37, _⟩ => ⟨S16x56x56x384, .f32⟩
  | .hbm, ⟨38, _⟩ => ⟨S16x384x56x56, .f32⟩
  | .hbm, ⟨39, _⟩ => ⟨S16x56x56x1024, .f32⟩
  | .hbm, ⟨40, _⟩ => ⟨S16x1024x56x56, .f32⟩
  | .hbm, ⟨41, _⟩ => ⟨S16x56x56x384, .f32⟩
  | _, _ => ⟨S16x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  transposes_S16x384x56x56_S16x56x56x384_0_2_3_1 : S16x384x56x56.Transposes [0, 2, 3, 1] S16x56x56x384
  shapeCasts_S16x56x56x384_S50176x384 : S16x56x56x384.ShapeCasts S50176x384
  reducesTo_S50176x384_S50176_d1 : S50176x384.ReducesTo [1] S50176
  h_S_ : 0 < S_.numel
  bcast_S50176_S50176x1_0 : S50176.BroadcastsInDim S50176x1 (![0] : Fin 1 → Fin S50176x1.rank)
  reducesTo_S1024x384_S1024_d1 : S1024x384.ReducesTo [1] S1024
  bcast_S1024_S1x1024_1 : S1024.BroadcastsInDim S1x1024 (![1] : Fin 1 → Fin S1x1024.rank)
  bcast_S50176x1_S50176x1024_0_1 : S50176x1.BroadcastsInDim S50176x1024 (![0, 1] : Fin 2 → Fin S50176x1024.rank)
  bcast_S1x1024_S50176x1024_0_1 : S1x1024.BroadcastsInDim S50176x1024 (![0, 1] : Fin 2 → Fin S50176x1024.rank)
  transposes_S1024x384_S384x1024_1_0 : S1024x384.Transposes [1, 0] S384x1024
  bcast_S_S50176x1024 : S_.BroadcastsInDim S50176x1024 (![] : Fin 0 → Fin S50176x1024.rank)
  reducesTo_S50176x1024_S50176_d1 : S50176x1024.ReducesTo [1] S50176
  bcast_S_S50176 : S_.BroadcastsInDim S50176 (![] : Fin 0 → Fin S50176.rank)
  shapeCasts_S50176x384_S16x56x56x384 : S50176x384.ShapeCasts S16x56x56x384
  transposes_S16x56x56x384_S16x384x56x56_0_3_1_2 : S16x56x56x384.Transposes [0, 3, 1, 2] S16x384x56x56
  shapeCasts_S50176x1024_S16x56x56x1024 : S50176x1024.ShapeCasts S16x56x56x1024
  transposes_S16x56x56x1024_S16x1024x56x56_0_3_1_2 : S16x56x56x1024.Transposes [0, 3, 1, 2] S16x1024x56x56
  dot_S50176x384_S384x1024_S50176x1024_1_0_0_1_n_n_wf : DotDims.WF S50176x384 S384x1024 S50176x1024 [1] [0] [0] [1] [] []
  dot_S50176x1024_S1024x384_S50176x384_1_0_0_1_n_n_wf : DotDims.WF S50176x1024 S1024x384 S50176x384 [1] [0] [0] [1] [] []

variable [Facts₀]

def dot_S50176x384_S384x1024_S50176x1024_1_0_0_1_n_n : DotDims S50176x384 S384x1024 S50176x1024 where
  lhsContracting := [1]
  rhsContracting := [0]
  lhsNonContracting := [0]
  rhsNonContracting := [1]
  lhsBatch := []
  rhsBatch := []
  wf := dot_S50176x384_S384x1024_S50176x1024_1_0_0_1_n_n_wf
def dot_S50176x1024_S1024x384_S50176x384_1_0_0_1_n_n : DotDims S50176x1024 S1024x384 S50176x384 where
  lhsContracting := [1]
  rhsContracting := [0]
  lhsNonContracting := [0]
  rhsNonContracting := [1]
  lhsBatch := []
  rhsBatch := []
  wf := dot_S50176x1024_S1024x384_S50176x384_1_0_0_1_n_n_wf

class Facts : Prop extends Facts₀ where

variable [Facts]
-- ==== Proof.Spec.lean ====
/-
  What the kernel and the reference both compute, written once, row by row, on the extended reals.

  A feature row `x : Fin 384 → EReal` is compared with every code `w k` of a codebook of 1024 codes:
  the squared distance `‖x‖² + ‖w k‖² − 2·⟨x, w k⟩` (in exactly this grouping), the logits `−distance`,
  their soft-max over the codes (shifted by the row's largest logit, taken from −∞), and the soft-max-weighted
  sum of the codes. Nothing here depends on which row of which array `x` is: a row block of an array is
  treated by the same functions as the whole array, which is what lets a tile of 512 rows be compared with
  the 50176-row reference.
-/
import Idealize.ShloMosaic.PureOps.Ideal
import Idealize.ShloMosaic.Lib.ValueIdx

noncomputable section

open scoped BigOperators

namespace Cert.Codebook

open Idealize.ShloMosaic Idealize.ShloMosaic.ValueIdx

/-- Squared distance of the row `xr` to code `k`: `(Σ xr² + Σ (w k)²) − 2 · Σ xr · (w k)`; the factor is the
    single-precision pattern of `2.0`, the same word in both programs, never evaluated. -/
def rowDist (xr : Fin 384 → EReal) (w : Fin 1024 → Fin 384 → EReal) (k : Fin 1024) : EReal :=
  ((∑ c : Fin 384, xr c * xr c) + ∑ c : Fin 384, w k c * w k c)
    - Ideal.ofBits .f32 0x40000000#32 * ∑ c : Fin 384, xr c * w k c

/-- The row's logit at code `k`: the negated distance. -/
def rowLogit (xr : Fin 384 → EReal) (w : Fin 1024 → Fin 384 → EReal) (k : Fin 1024) : EReal :=
  -(rowDist xr w k)

/-- The row's largest logit, taken from −∞ (and once more against −∞, as both programs do). -/
def rowMax (xr : Fin 384 → EReal) (w : Fin 1024 → Fin 384 → EReal) : EReal :=
  max (Ideal.ofBits .f32 0xFF800000#32)
    ((Finset.univ : Finset (Fin 1024)).fold max (Ideal.ofBits .f32 0xFF800000#32) (rowLogit xr w))

/-- The shifted exponential of the logit at code `k`. -/
def rowExp (xr : Fin 384 → EReal) (w : Fin 1024 → Fin 384 → EReal) (k : Fin 1024) : EReal :=
  Ideal.exp (rowLogit xr w k - rowMax xr w)

/-- The soft-max weight of code `k` for the row. -/
def rowProb (xr : Fin 384 → EReal) (w : Fin 1024 → Fin 384 → EReal) (k : Fin 1024) : EReal :=
  Ideal.div (rowExp xr w k) (∑ k' : Fin 1024, rowExp xr w k')

/-- The soft-max-weighted sum of the codes, at feature `c`. -/
def rowQuant (xr : Fin 384 → EReal) (w : Fin 1024 → Fin 384 → EReal) (c : Fin 384) : EReal :=
  ∑ k : Fin 1024, rowProb xr w k * w k c

/-- Row `r` of an array of `R` feature rows. -/
abbrev rowOf {R : Nat} (x : (⟨2, ![R, 384]⟩ : Shape).Idx → EReal) (r : Fin R) : Fin 384 → EReal :=
  fun c => x (ix2 r c)

/-- A `[1024, 384]` array read as a codebook. -/
abbrev book (w : (⟨2, ![1024, 384]⟩ : Shape).Idx → EReal) : Fin 1024 → Fin 384 → EReal :=
  fun k c => w (ix2 k c)

/-- The distances of every row of `x` to every code. -/
def distOf {R : Nat} (x : (⟨2, ![R, 384]⟩ : Shape).Idx → EReal) (w : (⟨2, ![1024, 384]⟩ : Shape).Idx → EReal) :
    (⟨2, ![R, 1024]⟩ : Shape).Idx → EReal :=
  fun i => rowDist (rowOf x ⟨(i 0).val, idx2_lt0 i⟩) (book w) ⟨(i 1).val, idx2_lt1 i⟩

/-- The soft-max weights of every row of `x`. -/
def probOf {R : Nat} (x : (⟨2, ![R, 384]⟩ : Shape).Idx → EReal) (w : (⟨2, ![1024, 384]⟩ : Shape).Idx → EReal) :
    (⟨2, ![R, 1024]⟩ : Shape).Idx → EReal :=
  fun i => rowProb (rowOf x ⟨(i 0).val, idx2_lt0 i⟩) (book w) ⟨(i 1).val, idx2_lt1 i⟩

/-- The weighted code sums of every row of `x`. -/
def quantOf {R : Nat} (x : (⟨2, ![R, 384]⟩ : Shape).Idx → EReal) (w : (⟨2, ![1024, 384]⟩ : Shape).Idx → EReal) :
    (⟨2, ![R, 384]⟩ : Shape).Idx → EReal :=
  fun i => rowQuant (rowOf x ⟨(i 0).val, idx2_lt0 i⟩) (book w) ⟨(i 1).val, idx2_lt1 i⟩

theorem distOf_ix2 {R : Nat} (x : (⟨2, ![R, 384]⟩ : Shape).Idx → EReal) (w : (⟨2, ![1024, 384]⟩ : Shape).Idx → EReal)
    (r : Fin R) (k : Fin 1024) : distOf x w (ix2 r k) = rowDist (rowOf x r) (book w) k := rfl

theorem probOf_ix2 {R : Nat} (x : (⟨2, ![R, 384]⟩ : Shape).Idx → EReal) (w : (⟨2, ![1024, 384]⟩ : Shape).Idx → EReal)
    (r : Fin R) (k : Fin 1024) : probOf x w (ix2 r k) = rowProb (rowOf x r) (book w) k := rfl

theorem quantOf_ix2 {R : Nat} (x : (⟨2, ![R, 384]⟩ : Shape).Idx → EReal) (w : (⟨2, ![1024, 384]⟩ : Shape).Idx → EReal)
    (r : Fin R) (c : Fin 384) : quantOf x w (ix2 r c) = rowQuant (rowOf x r) (book w) c := rfl

/-- A block of rows is treated as the whole array is: if row `p` of the block `xb` is row `r` of `x` and the
    block's codebook is the array's, the three results agree at those rows. -/
theorem distOf_rows {R R' : Nat} (xb : (⟨2, ![R, 384]⟩ : Shape).Idx → EReal) (x : (⟨2, ![R', 384]⟩ : Shape).Idx → EReal)
    (wb w : (⟨2, ![1024, 384]⟩ : Shape).Idx → EReal) (p : Fin R) (r : Fin R')
    (hx : ∀ c, xb (ix2 p c) = x (ix2 r c)) (hw : ∀ k c, wb (ix2 k c) = w (ix2 k c)) (k : Fin 1024) :
    distOf xb wb (ix2 p k) = distOf x w (ix2 r k) := by
  rw [distOf_ix2, distOf_ix2, show rowOf xb p = rowOf x r from funext hx,
    show book wb = book w from funext fun k => funext (hw k)]

theorem probOf_rows {R R' : Nat} (xb : (⟨2, ![R, 384]⟩ : Shape).Idx → EReal) (x : (⟨2, ![R', 384]⟩ : Shape).Idx → EReal)
    (wb w : (⟨2, ![1024, 384]⟩ : Shape).Idx → EReal) (p : Fin R) (r : Fin R')
    (hx : ∀ c, xb (ix2 p c) = x (ix2 r c)) (hw : ∀ k c, wb (ix2 k c) = w (ix2 k c)) (k : Fin 1024) :
    probOf xb wb (ix2 p k) = probOf x w (ix2 r k) := by
  rw [probOf_ix2, probOf_ix2, show rowOf xb p = rowOf x r from funext hx,
    show book wb = book w from funext fun k => funext (hw k)]

theorem quantOf_rows {R R' : Nat} (xb : (⟨2, ![R, 384]⟩ : Shape).Idx → EReal) (x : (⟨2, ![R', 384]⟩ : Shape).Idx → EReal)
    (wb w : (⟨2, ![1024, 384]⟩ : Shape).Idx → EReal) (p : Fin R) (r : Fin R')
    (hx : ∀ c, xb (ix2 p c) = x (ix2 r c)) (hw : ∀ k c, wb (ix2 k c) = w (ix2 k c)) (c : Fin 384) :
    quantOf xb wb (ix2 p c) = quantOf x w (ix2 r c) := by
  rw [quantOf_ix2, quantOf_ix2, show rowOf xb p = rowOf x r from funext hx,
    show book wb = book w from funext fun k => funext (hw k)]

end Cert.Codebook

end
-- ==== Proof.KerRows.lean ====
/-
  The kernel's three stored values, read row by row.

  Each grid step holds a tile `x0` of 512 feature rows and the whole codebook `x1`. What it stores into its three
  output tiles is, at the extended reals, exactly the row functions of `Spec`: the distances, their soft-max
  weights, and the weighted code sums — the narrowing to half precision before the two matrix products is the
  identity there, a matrix product into a zero accumulator is the plain sum over the contracted axis, a lane
  reduction is the sum (or the maximum) over its axis, and the keep-dims casts and broadcasts only re-index.
-/
import proofs.«146969_j87600152969629_1_alg».proof.Proof.Gen.KernelIdeal.Skeleton
import proofs.«146969_j87600152969629_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Rows

open Cert.KernelIdeal Cert.KernelIdeal.Gen Cert.Codebook Idealize.ShloMosaic Idealize.ShloMosaic.ValueIdx

/-- The index a reduction over axis 1 of a matrix puts back: row `p`, column `c`. -/
theorem lift_row {m n : Nat} (h : (⟨2, ![m, n]⟩ : Shape).Reduces [1] (⟨1, ![m]⟩ : Shape)) (p : Fin m)
    (c : Fin ((⟨2, ![m, n]⟩ : Shape).size 1)) : h.lift (ix1 p) c = ix2 p (⟨c.val, c.isLt⟩ : Fin n) := by
  funext a; apply Fin.ext
  fin_cases a <;> rfl

/-- A sum over axis 1 of a matrix, read at row `p`, is the sum of that row. -/
theorem rowSum_apply {m n : Nat} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (p : Fin m) :
    multiReduction (F := Ideal) .add [1] (⟨1, ![m]⟩ : Shape) src acc h hφ hacc (ix1 p) = ∑ c : Fin n, src (ix2 p c) := by
  refine (Ideal.multiReduction_add_single src acc h hφ hacc (ix1 p)).trans ?_
  show ∑ c : Fin n, src (h.lift (ix1 p) c) = _
  exact Finset.sum_congr rfl fun c _ => congrArg src (lift_row h p c)

/-- A maximum over axis 1 of a matrix, read at row `p`, is the fold of `max` over that row from the start value. -/
theorem rowMax_apply {m n : Nat} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction (F := Ideal) .maximumf [1] (⟨1, ![m]⟩ : Shape) src acc h hφ hacc (ix1 p)
      = (Finset.univ : Finset (Fin n)).fold max (Ideal.ofBits .f32 acc) (fun c => src (ix2 p c)) := by
  refine (Ideal.multiReduction_maximumf_single src acc h hφ hacc (ix1 p)).trans ?_
  show (Finset.univ : Finset (Fin n)).fold max (Ideal.ofBits .f32 acc) (src ∘ h.lift (ix1 p)) = _
  exact congrArg (fun f => Finset.fold max (Ideal.ofBits .f32 acc) f (Finset.univ : Finset (Fin n)))
    (funext fun c => congrArg src (lift_row h p c))

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row sum from the zero word, with the side conditions as the payloads carry them. -/
theorem rowSum0_apply {m n : Nat} (src : FVec Ideal ⟨2, ![m, n]⟩ .f32)
    (h : (⟨2, ![m, n]⟩ : Shape).Reduces [1] (⟨1, ![m]⟩ : Shape)) (p : Fin m) :
    multiReduction (F := Ideal) .add [1] (⟨1, ![m]⟩ : Shape) src 0x00000000#32 h (.inl rfl) rfl (ix1 p)
      = ∑ c : Fin n, src (ix2 p c) :=
  rowSum_apply src _ h _ _ p

/-- The row maximum from the word of −∞, with the side conditions as the payloads carry them. -/
theorem rowMaxNegInf_apply {m n : Nat} (src : FVec Ideal ⟨2, ![m, n]⟩ .f32)
    (h : (⟨2, ![m, n]⟩ : Shape).Reduces [1] (⟨1, ![m]⟩ : Shape)) (p : Fin m) :
    multiReduction (F := Ideal) .maximumf [1] (⟨1, ![m]⟩ : Shape) src 0xFF800000#32 h (.inl rfl) rfl (ix1 p)
      = (Finset.univ : Finset (Fin n)).fold max (Ideal.ofBits .f32 0xFF800000#32) (fun c => src (ix2 p c)) :=
  rowMax_apply src _ h _ _ p

/-! The first matrix product contracts axis 1 of both operands: at `(p, k)` it pairs row `p` of the left with row `k` of the right. -/

theorem lhs_dotA_0 (i : S512x1024.Idx) (q : dot_S512x384_S1024x384_S512x1024_1_1_0_0_n_n.contr.Idx) :
    (dot_S512x384_S1024x384_S512x1024_1_1_0_0_n_n.lhsIdx i q 0).val = (i 0).val := by
  unfold DotDims.lhsIdx
  rw [dif_neg (show ¬(0 : Fin S512x384.rank) ∈ dot_S512x384_S1024x384_S512x1024_1_1_0_0_n_n.lhsBatch by decide), dif_pos (show (0 : Fin S512x384.rank) ∈ dot_S512x384_S1024x384_S512x1024_1_1_0_0_n_n.lhsNonContracting by decide)]
  rfl
theorem lhs_dotA_1 (i : S512x1024.Idx) (q : dot_S512x384_S1024x384_S512x1024_1_1_0_0_n_n.contr.Idx) :
    (dot_S512x384_S1024x384_S512x1024_1_1_0_0_n_n.lhsIdx i q 1).val = (q ⟨0, by decide⟩).val :=
  dot_S512x384_S1024x384_S512x1024_1_1_0_0_n_n.lhsIdx_val_of_single rfl i q
theorem rhs_dotA_0 (i : S512x1024.Idx) (q : dot_S512x384_S1024x384_S512x1024_1_1_0_0_n_n.contr.Idx) :
    (dot_S512x384_S1024x384_S512x1024_1_1_0_0_n_n.rhsIdx i q 0).val = (i 1).val := by
  unfold DotDims.rhsIdx
  rw [dif_neg (show ¬(0 : Fin S1024x384.rank) ∈ dot_S512x384_S1024x384_S512x1024_1_1_0_0_n_n.rhsBatch by decide), dif_pos (show (0 : Fin S1024x384.rank) ∈ dot_S512x384_S1024x384_S512x1024_1_1_0_0_n_n.rhsNonContracting by decide)]
  rfl
theorem rhs_dotA_1 (i : S512x1024.Idx) (q : dot_S512x384_S1024x384_S512x1024_1_1_0_0_n_n.contr.Idx) :
    (dot_S512x384_S1024x384_S512x1024_1_1_0_0_n_n.rhsIdx i q 1).val = (q ⟨0, by decide⟩).val :=
  dot_S512x384_S1024x384_S512x1024_1_1_0_0_n_n.rhsIdx_val_of_single rfl i q

/-- The first matrix product into the zero accumulator, at `(p, k)`: the sum over the features of left row `p` times right row `k`. -/
theorem matmulA_apply {φ₁ φ₂ : FTy} (lhs : FVec Ideal S512x384 φ₁) (rhs : FVec Ideal S1024x384 φ₂) (p : Fin 512) (k : Fin 1024) :
    matmul (F := Ideal) dot_S512x384_S1024x384_S512x1024_1_1_0_0_n_n none lhs rhs (constant S512x1024 .f32 0x00000000#32) (ix2 p k)
      = ∑ c : Fin 384, lhs (ix2 p c) * rhs (ix2 k c) := by
  simp only [matmul]
  rw [Ideal.matmul_constant_zero_apply, ← Equiv.sum_comp (ValueIdx.contrEquiv1 dot_S512x384_S1024x384_S512x1024_1_1_0_0_n_n 384 rfl rfl).symm]
  refine Finset.sum_congr rfl fun c _ => ?_
  have hk := ValueIdx.contrEquiv1_symm_val dot_S512x384_S1024x384_S512x1024_1_1_0_0_n_n 384 rfl rfl c
  have el : dot_S512x384_S1024x384_S512x1024_1_1_0_0_n_n.lhsIdx (ix2 p k) ((ValueIdx.contrEquiv1 dot_S512x384_S1024x384_S512x1024_1_1_0_0_n_n 384 rfl rfl).symm c) = ix2 p c := funext fun a => Fin.ext (by
    match a with
    | ⟨0, _⟩ => exact lhs_dotA_0 _ _
    | ⟨1, _⟩ => exact (lhs_dotA_1 _ _).trans hk)
  have er : dot_S512x384_S1024x384_S512x1024_1_1_0_0_n_n.rhsIdx (ix2 p k) ((ValueIdx.contrEquiv1 dot_S512x384_S1024x384_S512x1024_1_1_0_0_n_n 384 rfl rfl).symm c) = ix2 k c := funext fun a => Fin.ext (by
    match a with
    | ⟨0, _⟩ => exact rhs_dotA_0 _ _
    | ⟨1, _⟩ => exact (rhs_dotA_1 _ _).trans hk)
  rw [el, er]

/-! The second matrix product contracts axis 1 of the left with axis 0 of the right: at `(p, c)` it pairs row `p` of the left with column `c` of the right. -/

theorem lhs_dotB_0 (i : S512x384.Idx) (q : dot_S512x1024_S1024x384_S512x384_1_0_0_1_n_n.contr.Idx) :
    (dot_S512x1024_S1024x384_S512x384_1_0_0_1_n_n.lhsIdx i q 0).val = (i 0).val := by
  unfold DotDims.lhsIdx
  rw [dif_neg (show ¬(0 : Fin S512x1024.rank) ∈ dot_S512x1024_S1024x384_S512x384_1_0_0_1_n_n.lhsBatch by decide), dif_pos (show (0 : Fin S512x1024.rank) ∈ dot_S512x1024_S1024x384_S512x384_1_0_0_1_n_n.lhsNonContracting by decide)]
  rfl
theorem lhs_dotB_1 (i : S512x384.Idx) (q : dot_S512x1024_S1024x384_S512x384_1_0_0_1_n_n.contr.Idx) :
    (dot_S512x1024_S1024x384_S512x384_1_0_0_1_n_n.lhsIdx i q 1).val = (q ⟨0, by decide⟩).val :=
  dot_S512x1024_S1024x384_S512x384_1_0_0_1_n_n.lhsIdx_val_of_single rfl i q
theorem rhs_dotB_0 (i : S512x384.Idx) (q : dot_S512x1024_S1024x384_S512x384_1_0_0_1_n_n.contr.Idx) :
    (dot_S512x1024_S1024x384_S512x384_1_0_0_1_n_n.rhsIdx i q 0).val = (q ⟨0, by decide⟩).val :=
  dot_S512x1024_S1024x384_S512x384_1_0_0_1_n_n.rhsIdx_val_of_single rfl i q
theorem rhs_dotB_1 (i : S512x384.Idx) (q : dot_S512x1024_S1024x384_S512x384_1_0_0_1_n_n.contr.Idx) :
    (dot_S512x1024_S1024x384_S512x384_1_0_0_1_n_n.rhsIdx i q 1).val = (i 1).val := by
  unfold DotDims.rhsIdx
  rw [dif_neg (show ¬(1 : Fin S1024x384.rank) ∈ dot_S512x1024_S1024x384_S512x384_1_0_0_1_n_n.rhsBatch by decide), dif_pos (show (1 : Fin S1024x384.rank) ∈ dot_S512x1024_S1024x384_S512x384_1_0_0_1_n_n.rhsNonContracting by decide)]
  rfl

/-- The second matrix product into the zero accumulator, at `(p, c)`: the sum over the codes of left `(p, k)` times right `(k, c)`. -/
theorem matmulB_apply {φ₁ φ₂ : FTy} (lhs : FVec Ideal S512x1024 φ₁) (rhs : FVec Ideal S1024x384 φ₂) (p : Fin 512) (c : Fin 384) :
    matmul (F := Ideal) dot_S512x1024_S1024x384_S512x384_1_0_0_1_n_n none lhs rhs (constant S512x384 .f32 0x00000000#32) (ix2 p c)
      = ∑ k : Fin 1024, lhs (ix2 p k) * rhs (ix2 k c) := by
  simp only [matmul]
  rw [Ideal.matmul_constant_zero_apply, ← Equiv.sum_comp (ValueIdx.contrEquiv1 dot_S512x1024_S1024x384_S512x384_1_0_0_1_n_n 1024 rfl rfl).symm]
  refine Finset.sum_congr rfl fun k _ => ?_
  have hk := ValueIdx.contrEquiv1_symm_val dot_S512x1024_S1024x384_S512x384_1_0_0_1_n_n 1024 rfl rfl k
  have el : dot_S512x1024_S1024x384_S512x384_1_0_0_1_n_n.lhsIdx (ix2 p c) ((ValueIdx.contrEquiv1 dot_S512x1024_S1024x384_S512x384_1_0_0_1_n_n 1024 rfl rfl).symm k) = ix2 p k := funext fun a => Fin.ext (by
    match a with
    | ⟨0, _⟩ => exact lhs_dotB_0 _ _
    | ⟨1, _⟩ => exact (lhs_dotB_1 _ _).trans hk)
  have er : dot_S512x1024_S1024x384_S512x384_1_0_0_1_n_n.rhsIdx (ix2 p c) ((ValueIdx.contrEquiv1 dot_S512x1024_S1024x384_S512x384_1_0_0_1_n_n 1024 rfl rfl).symm k) = ix2 k c := funext fun a => Fin.ext (by
    match a with
    | ⟨0, _⟩ => exact (rhs_dotB_0 _ _).trans hk
    | ⟨1, _⟩ => exact rhs_dotB_1 _ _)
  rw [el, er]

/-- An exponential at an index is the exponential of the element. -/
theorem expf_apply {s : Shape} {φ : FTy} (a : FVec Ideal s φ) (i : s.Idx) : exp a i = Ideal.exp (a i) := rfl

/-- A maximum at an index is the maximum of the elements. -/
theorem maxf_apply {s : Shape} {φ : FTy} (a b : FVec Ideal s φ) (i : s.Idx) : maximumf a b i = max (a i) (b i) :=
  (maximumf_apply a b i).trans (Eq.refl _)

/-- The first stored value: the distances of the tile's rows to every code. -/
theorem pay2_eq (x0 : Vec Ideal S512x384 .f32) (x1 : Vec Ideal S1024x384 .f32) :
    k0_pay2 (F := Ideal) x0 x1 = distOf x0 x1 := by
  funext j
  obtain ⟨p, k, rfl⟩ : ∃ (p : Fin 512) (k : Fin 1024), j = ix2 p k := ⟨j 0, j 1, eq_ix2 j⟩
  rw [distOf_ix2]
  unfold k0_pay2 k0_pay1 rowDist
  simp only [subf_apply, addf_apply, mulf_apply, broadcast_apply, truncf_apply, shapeCast_self,
    broadcastTo_a1_ab_apply, shapeCast_a_a1_apply, broadcastTo_1b_ab_apply, shapeCast_a_1a_apply, matmulA_apply]
  rw [rowSum0_apply, rowSum0_apply]
  rfl

/-- The second stored value: the soft-max weights of the tile's rows. -/
theorem pay3_eq (x0 : Vec Ideal S512x384 .f32) (x1 : Vec Ideal S1024x384 .f32) :
    k0_pay3 (F := Ideal) x0 x1 = probOf x0 x1 := by
  funext j
  obtain ⟨p, k, rfl⟩ : ∃ (p : Fin 512) (k : Fin 1024), j = ix2 p k := ⟨j 0, j 1, eq_ix2 j⟩
  rw [probOf_ix2]
  unfold k0_pay3
  rw [pay2_eq]
  simp only [divf_apply, expf_apply, subf_apply, maxf_apply, broadcast_apply,
    broadcastTo_a1_ab_apply, shapeCast_a_a1_apply, distOf_ix2]
  rw [rowSum0_apply]
  simp only [divf_apply, expf_apply, subf_apply, maxf_apply, broadcast_apply,
    broadcastTo_a1_ab_apply, shapeCast_a_a1_apply, distOf_ix2]
  rw [rowMaxNegInf_apply]
  simp only [subf_apply, broadcast_apply, distOf_ix2, Ideal.ofBits_def, Ideal.ofBits_zero_f32, zero_sub]
  rfl

/-- The third stored value: the weighted code sums of the tile's rows. -/
theorem pay4_eq (x0 : Vec Ideal S512x384 .f32) (x1 : Vec Ideal S1024x384 .f32) :
    k0_pay4 (F := Ideal) x0 x1 = quantOf x0 x1 := by
  funext j
  obtain ⟨p, c, rfl⟩ : ∃ (p : Fin 512) (c : Fin 384), j = ix2 p c := ⟨j 0, j 1, eq_ix2 j⟩
  rw [quantOf_ix2]
  unfold k0_pay4 k0_pay1
  rw [pay3_eq]
  simp only [matmulB_apply, truncf_apply, probOf_ix2]
  rfl

end Cert.KernelIdeal.Rows

end
-- ==== Proof.KerArrays.lean ====
/-
  From tiles to arrays.

  The grid has 98 points; point `t` reads rows `512·t … 512·t + 511` of the flattened feature rows and the whole
  codebook, and writes the same rows of the three output arrays. Each stored tile is the row functions of `Spec`
  applied to the tile's rows (`KerRows`), and those functions treat a row of a tile as they treat the same row of
  the whole array; the 98 row blocks tile each output array, so after the run the three arrays are the distances,
  the soft-max weights and the weighted code sums of ALL 50176 rows.
-/
import proofs.«146969_j87600152969629_1_alg».proof.Proof.Gen.KernelIdeal.Frame
import proofs.«146969_j87600152969629_1_alg».proof.Proof.KerRows
import Idealize.ShloMosaic.Lib.Pipeline.Value

set_option maxRecDepth 16384

noncomputable section

namespace Cert.KernelIdeal.Arrays

open Cert.KernelIdeal Cert.KernelIdeal.Gen Cert.KernelIdeal.Rows Cert.Codebook
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flattened feature rows as the region finds them. -/
abbrev xarr (c : Dev nD) : Vec Ideal S50176x384 .f32 := V m c main_v1
/-- The codebook as the region finds it. -/
abbrev warr (c : Dev nD) : Vec Ideal S1024x384 .f32 := V m c main_arg1

theorem zeroOff : (![0, 0] : Fin 2 → Nat) = fun _ => 0 := funext fun a => by fin_cases a <;> rfl

/-- The index maps over the grid: the row-tiled windows are at block `(t, 0)`, the codebook's at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem npoints : cfg0.N = 98 := N_0

/-- Row `p` of the feature tile at point `t` is row `512·t + p` of the flattened feature rows. -/
theorem xblk_apply (c : Dev nD) (t : Fin cfg0.N) (p : Fin 512) (f : Fin 384) (r : Fin 50176)
    (hr : r.val = 512 * t.val + p.val) :
    (iblk m c 0 t : Vec Ideal S512x384 .f32) (ix2 p f) = xarr m c (ix2 r f) := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 384 + 1 * f.val = f.val; rw [e1]; omega

/-- The codebook tile at every point is the whole codebook. -/
theorem wblk_apply (c : Dev nD) (t : Fin cfg0.N) (k : Fin 1024) (f : Fin 384) :
    (iblk m c 1 t : Vec Ideal S1024x384 .f32) (ix2 k f) = warr m c (ix2 k f) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * k.val = k.val; rw [e0]; omega
  | ⟨1, _⟩ => show win0_1.index t (1 : Fin 2) * 384 + 1 * f.val = f.val; rw [e1]; omega

/-- The row of the arrays that row `p` of point `t`'s tiles is. -/
abbrev rowAt (t : Fin cfg0.N) (p : Fin 512) : Fin 50176 :=
  ⟨512 * t.val + p.val, by have h : t.val < 98 := lt_of_lt_of_eq t.isLt npoints; have := p.isLt; omega⟩

/-! ## The distances (output window 2) -/

theorem flushed2_eq (c : Dev nD) (t : Fin cfg0.N) :
    (dats m 0 c).flushed 2 t = ((cfg0.win 2).blk t).view.read (Elt Ideal) (distOf (xarr m c) (warr m c)) := by
  show (cfg0.win 2).cut (grid0.coords t) ((dats m 0 c).after 2 t) = _
  rw [after0_2]
  unfold out0_2
  rw [View.canon_unit_zero zeroOff]
  simp only [View.ld_unit_zero (S := S512x384) zeroOff, View.ld_unit_zero (S := S1024x384) zeroOff]
  obtain ⟨-, -, -, -, e0, e1, -⟩ := idx_facts t
  funext j
  obtain ⟨p, k, rfl⟩ : ∃ (p : Fin 512) (k : Fin 1024), j = ix2 p k := ⟨j 0, j 1, eq_ix2 j⟩
  show k0_pay2 (F := Ideal) (iblk m c 0 t) (iblk m c 1 t) (ix2 p k)
    = distOf (xarr m c) (warr m c) (((cfg0.win 2).blk t).view.emb (ix2 p k))
  have hemb : ((cfg0.win 2).blk t).view.emb (ix2 p k) = ix2 (rowAt t p) k := by
    funext a; apply Fin.ext
    match a with
    | ⟨0, _⟩ => show win0_2.index t (0 : Fin 2) * 512 + 1 * p.val = 512 * t.val + p.val; rw [e0]; omega
    | ⟨1, _⟩ => show win0_2.index t (1 : Fin 2) * 1024 + 1 * k.val = k.val; rw [e1]; omega
  rw [hemb]
  refine (congrFun (pay2_eq (iblk m c 0 t) (iblk m c 1 t)) (ix2 p k)).trans ?_
  exact distOf_rows _ _ _ _ p (rowAt t p) (fun f => xblk_apply m c t p f (rowAt t p) rfl) (fun k' f => wblk_apply m c t k' f) k

theorem mem_blk2 (t : Fin cfg0.N) (i : S50176x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v2_0).slice (win0_2.rect t)).set ↔ _
  rw [View.set_slice_whole, Rect.mem_set_unit]
  exact Iff.rfl

theorem cover2 (i : S50176x1024.Idx) : ∃ t : Fin cfg0.N, (cfg0.win 2).flush t = true ∧ i ∈ ((cfg0.win 2).blk t).view.set := by
  have h0 : (i 0).val < 50176 := idx2_lt0 i
  have h1 : (i 1).val < 1024 := idx2_lt1 i
  let t : Fin cfg0.N := ⟨(i 0).val / 512, by rw [npoints]; omega⟩
  obtain ⟨-, -, -, -, e0, e1, -⟩ := idx_facts t
  have ht : t.val = (i 0).val / 512 := rfl
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; rw [e0, ht]; omega
  | ⟨1, _⟩ => show win0_2.index t (1 : Fin 2) * 1024 ≤ (i 1).val ∧ (i 1).val < win0_2.index t (1 : Fin 2) * 1024 + 1024; rw [e1]; omega

/-- After the run the first output array holds the distances of every row to every code. -/
theorem final2 (c : Dev nD) : (dats m 0 c).arrAt 2 cfg0.N = distOf (xarr m c) (warr m c) :=
  (dats m 0 c).arrAt_eq_of_cover 2 (distOf (xarr m c) (warr m c)) (fun t _ => flushed2_eq m c t) cover2

/-! ## The soft-max weights (output window 3) -/

theorem flushed3_eq (c : Dev nD) (t : Fin cfg0.N) :
    (dats m 0 c).flushed 3 t = ((cfg0.win 3).blk t).view.read (Elt Ideal) (probOf (xarr m c) (warr m c)) := by
  show (cfg0.win 3).cut (grid0.coords t) ((dats m 0 c).after 3 t) = _
  rw [after0_3]
  unfold out0_3
  rw [View.canon_unit_zero zeroOff]
  simp only [View.ld_unit_zero (S := S512x384) zeroOff, View.ld_unit_zero (S := S1024x384) zeroOff]
  obtain ⟨-, -, -, -, -, -, e0, e1, -⟩ := idx_facts t
  funext j
  obtain ⟨p, k, rfl⟩ : ∃ (p : Fin 512) (k : Fin 1024), j = ix2 p k := ⟨j 0, j 1, eq_ix2 j⟩
  show k0_pay3 (F := Ideal) (iblk m c 0 t) (iblk m c 1 t) (ix2 p k)
    = probOf (xarr m c) (warr m c) (((cfg0.win 3).blk t).view.emb (ix2 p k))
  have hemb : ((cfg0.win 3).blk t).view.emb (ix2 p k) = ix2 (rowAt t p) k := by
    funext a; apply Fin.ext
    match a with
    | ⟨0, _⟩ => show win0_3.index t (0 : Fin 2) * 512 + 1 * p.val = 512 * t.val + p.val; rw [e0]; omega
    | ⟨1, _⟩ => show win0_3.index t (1 : Fin 2) * 1024 + 1 * k.val = k.val; rw [e1]; omega
  rw [hemb]
  refine (congrFun (pay3_eq (iblk m c 0 t) (iblk m c 1 t)) (ix2 p k)).trans ?_
  exact probOf_rows _ _ _ _ p (rowAt t p) (fun f => xblk_apply m c t p f (rowAt t p) rfl) (fun k' f => wblk_apply m c t k' f) k

theorem mem_blk3 (t : Fin cfg0.N) (i : S50176x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2_1).slice (win0_3.rect t)).set ↔ _
  rw [View.set_slice_whole, Rect.mem_set_unit]
  exact Iff.rfl

theorem cover3 (i : S50176x1024.Idx) : ∃ t : Fin cfg0.N, (cfg0.win 3).flush t = true ∧ i ∈ ((cfg0.win 3).blk t).view.set := by
  have h0 : (i 0).val < 50176 := idx2_lt0 i
  have h1 : (i 1).val < 1024 := idx2_lt1 i
  let t : Fin cfg0.N := ⟨(i 0).val / 512, by rw [npoints]; omega⟩
  obtain ⟨-, -, -, -, -, -, e0, e1, -⟩ := idx_facts t
  have ht : t.val = (i 0).val / 512 := rfl
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1024 ≤ (i 1).val ∧ (i 1).val < win0_3.index t (1 : Fin 2) * 1024 + 1024; rw [e1]; omega

/-- After the run the second output array holds the soft-max weights of every row. -/
theorem final3 (c : Dev nD) : (dats m 0 c).arrAt 3 cfg0.N = probOf (xarr m c) (warr m c) :=
  (dats m 0 c).arrAt_eq_of_cover 3 (probOf (xarr m c) (warr m c)) (fun t _ => flushed3_eq m c t) cover3

/-! ## The weighted code sums (output window 4) -/

theorem flushed4_eq (c : Dev nD) (t : Fin cfg0.N) :
    (dats m 0 c).flushed 4 t = ((cfg0.win 4).blk t).view.read (Elt Ideal) (quantOf (xarr m c) (warr m c)) := by
  show (cfg0.win 4).cut (grid0.coords t) ((dats m 0 c).after 4 t) = _
  rw [after0_4]
  unfold out0_4
  rw [View.canon_unit_zero zeroOff]
  simp only [View.ld_unit_zero (S := S512x384) zeroOff, View.ld_unit_zero (S := S1024x384) zeroOff]
  obtain ⟨-, -, -, -, -, -, -, -, e0, e1⟩ := idx_facts t
  funext j
  obtain ⟨p, f, rfl⟩ : ∃ (p : Fin 512) (f : Fin 384), j = ix2 p f := ⟨j 0, j 1, eq_ix2 j⟩
  show k0_pay4 (F := Ideal) (iblk m c 0 t) (iblk m c 1 t) (ix2 p f)
    = quantOf (xarr m c) (warr m c) (((cfg0.win 4).blk t).view.emb (ix2 p f))
  have hemb : ((cfg0.win 4).blk t).view.emb (ix2 p f) = ix2 (rowAt t p) f := by
    funext a; apply Fin.ext
    match a with
    | ⟨0, _⟩ => show win0_4.index t (0 : Fin 2) * 512 + 1 * p.val = 512 * t.val + p.val; rw [e0]; omega
    | ⟨1, _⟩ => show win0_4.index t (1 : Fin 2) * 384 + 1 * f.val = f.val; rw [e1]; omega
  rw [hemb]
  refine (congrFun (pay4_eq (iblk m c 0 t) (iblk m c 1 t)) (ix2 p f)).trans ?_
  exact quantOf_rows _ _ _ _ p (rowAt t p) (fun f' => xblk_apply m c t p f' (rowAt t p) rfl) (fun k' f' => wblk_apply m c t k' f') f

theorem mem_blk4 (t : Fin cfg0.N) (i : S50176x384.Idx) :
    i ∈ ((cfg0.win 4).blk t).view.set ↔ ∀ a : Fin 2, win0_4.index t a * S512x384.size a ≤ (i a).val ∧ (i a).val < win0_4.index t a * S512x384.size a + S512x384.size a := by
  show i ∈ ((View.whole main_v2_2).slice (win0_4.rect t)).set ↔ _
  rw [View.set_slice_whole, Rect.mem_set_unit]
  exact Iff.rfl

theorem cover4 (i : S50176x384.Idx) : ∃ t : Fin cfg0.N, (cfg0.win 4).flush t = true ∧ i ∈ ((cfg0.win 4).blk t).view.set := by
  have h0 : (i 0).val < 50176 := idx2_lt0 i
  have h1 : (i 1).val < 384 := idx2_lt1 i
  let t : Fin cfg0.N := ⟨(i 0).val / 512, by rw [npoints]; omega⟩
  obtain ⟨-, -, -, -, -, -, -, -, e0, e1⟩ := idx_facts t
  have ht : t.val = (i 0).val / 512 := rfl
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 384 ≤ (i 1).val ∧ (i 1).val < win0_4.index t (1 : Fin 2) * 384 + 384; rw [e1]; omega

/-- After the run the third output array holds the weighted code sums of every row. -/
theorem final4 (c : Dev nD) : (dats m 0 c).arrAt 4 cfg0.N = quantOf (xarr m c) (warr m c) :=
  (dats m 0 c).arrAt_eq_of_cover 4 (quantOf (xarr m c) (warr m c)) (fun t _ => flushed4_eq m c t) cover4

end Cert.KernelIdeal.Arrays

end
-- ==== Proof.KerRun.lean ====
/-
  The idealized kernel's run, read: its four results as functions of the two arguments.

  Before the region the host lines flatten the features: `x = reshape (transpose feat)`; the region leaves the
  distances, the soft-max weights and the weighted code sums of every row of `x` (`KerArrays`); after it the host
  lines reshape `x` back to `[16,56,56,384]` and reshape-and-transpose the weighted sums and the weights to the
  channel-first layouts. So the run ends with those four arrays in the result buffers and the arguments as launched.
-/
import proofs.«146969_j87600152969629_1_alg».proof.Proof.Gen.KernelIdeal.Frame
import proofs.«146969_j87600152969629_1_alg».proof.Proof.KerArrays
import Idealize.ShloMosaic.Lib.Pipeline.Value
import Idealize.ShloMosaic.Lib.StableHlo.Run

set_option maxRecDepth 16384

noncomputable section

namespace Cert.KernelIdeal.Results

open Cert.KernelIdeal Cert.KernelIdeal.Gen Cert.KernelIdeal.Arrays Cert.Codebook
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flattened feature rows: the host lines before the region transpose the features to channel-last and reshape
    them to `[50176, 384]`. -/
def flat (a0 : Vec Ideal S16x384x56x56 .f32) : Vec Ideal S50176x384 .f32 :=
  shapeCast S50176x384 (transpose S16x56x56x384 [0, 2, 3, 1] a0 transposes_S16x384x56x56_S16x56x56x384_0_2_3_1)
    shapeCasts_S16x56x56x384_S50176x384

/-- The first result: the flattened rows reshaped to `[16,56,56,384]`. -/
def featOut (x : Vec Ideal S50176x384 .f32) : Vec Ideal S16x56x56x384 .f32 :=
  shapeCast S16x56x56x384 x shapeCasts_S50176x384_S16x56x56x384

/-- The second result: the weighted code sums, reshaped and moved to channel-first. -/
def quantOut (q : Vec Ideal S50176x384 .f32) : Vec Ideal S16x384x56x56 .f32 :=
  transpose S16x384x56x56 [0, 3, 1, 2] (shapeCast S16x56x56x384 q shapeCasts_S50176x384_S16x56x56x384)
    transposes_S16x56x56x384_S16x384x56x56_0_3_1_2

/-- The third result: the soft-max weights, reshaped and moved to code-first. -/
def probOut (p : Vec Ideal S50176x1024 .f32) : Vec Ideal S16x1024x56x56 .f32 :=
  transpose S16x1024x56x56 [0, 3, 1, 2] (shapeCast S16x56x56x1024 p shapeCasts_S50176x1024_S16x56x56x1024)
    transposes_S16x56x56x1024_S16x1024x56x56_0_3_1_2

/-- What the region finds in the flattened-rows buffer is `flat` of the feature argument. -/
theorem xarr_eq (c : Dev nD) : xarr m c = flat (m ((c : Thread nD τ).loc main_arg0)) := by
  show StableHlo.after (hostOps0 (F := Ideal)) (fun b => m (c, b)) (Proc.devRef .tc main_v1) = _
  after_results
  rfl

/-- The codebook is as launched. -/
theorem warr_eq (c : Dev nD) : warr m c = m ((c : Thread nD τ).loc main_arg1) := V_main_arg1 m c

/-- The host lines after the region leave the flattened rows, reshaped, in the first result's buffer. -/
theorem tail_feat (c : Dev nD) :
    Pipeline.afterTail₀ cfgs (dats m) 0 (V0 m) [hostOps1] c main_v3 = featOut (xarr m c) := by
  unfold Pipeline.afterTail₀
  show StableHlo.after (hostOps1 (F := Ideal)) _ (Proc.devRef .tc main_v3) = _
  after_results
  unfold featOut
  exact congrArg (fun a => shapeCast S16x56x56x384 a shapeCasts_S50176x384_S16x56x56x384)
    ((Pipeline.withArrays_arr spec0 launch0.win.arr_inj c _ _ 0).trans
      (((dats m 0 c).arrAt_in 0 rfl _).trans (A_eq m c 0)))

/-- … the weighted code sums, reshaped and transposed, in the second's … -/
theorem tail_quant (c : Dev nD) :
    Pipeline.afterTail₀ cfgs (dats m) 0 (V0 m) [hostOps1] c main_v5 = quantOut (quantOf (xarr m c) (warr m c)) := by
  unfold Pipeline.afterTail₀
  show StableHlo.after (hostOps1 (F := Ideal)) _ (Proc.devRef .tc main_v5) = _
  after_results
  unfold quantOut
  exact congrArg (fun a => transpose S16x384x56x56 [0, 3, 1, 2] (shapeCast S16x56x56x384 a shapeCasts_S50176x384_S16x56x56x384)
      transposes_S16x56x56x384_S16x384x56x56_0_3_1_2)
    ((Pipeline.withArrays_arr spec0 launch0.win.arr_inj c _ _ 4).trans (final4 m c))

/-- … and the soft-max weights, reshaped and transposed, in the third's. -/
theorem tail_prob (c : Dev nD) :
    Pipeline.afterTail₀ cfgs (dats m) 0 (V0 m) [hostOps1] c main_v7 = probOut (probOf (xarr m c) (warr m c)) := by
  unfold Pipeline.afterTail₀
  show StableHlo.after (hostOps1 (F := Ideal)) _ (Proc.devRef .tc main_v7) = _
  after_results
  unfold probOut
  exact congrArg (fun a => transpose S16x1024x56x56 [0, 3, 1, 2] (shapeCast S16x56x56x1024 a shapeCasts_S50176x1024_S16x56x56x1024)
      transposes_S16x56x56x1024_S16x1024x56x56_0_3_1_2)
    ((Pipeline.withArrays_arr spec0 launch0.win.arr_inj c _ _ 3).trans (final3 m c))

/-- THE RUN, READ: every weakly fair execution of the idealized kernel's program terminates with the four results at
    these functions of the arguments, the arguments unchanged. -/
theorem run : θ_run defs (onTc (τ := τ) (main (F := Ideal))) ⟨m, fun _ => 0, ρ⟩ fun r => ∀ c : Dev nD,
      r.2.mem ((c.tc : Thread nD τ).loc main_v3) = featOut (xarr m c)
      ∧ r.2.mem ((c.tc : Thread nD τ).loc main_v5) = quantOut (quantOf (xarr m c) (warr m c))
      ∧ r.2.mem ((c.tc : Thread nD τ).loc main_v7) = probOut (probOf (xarr m c) (warr m c))
      ∧ r.2.mem ((c.tc : Thread nD τ).loc main_v2_0) = distOf (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_feat m c),
     ((h c).2 main_v5 (Pipeline.mem_restRefs_of main_v5 (by decide) (by decide))).trans (tail_quant m c),
     ((h c).2 main_v7 (Pipeline.mem_restRefs_of main_v7 (by decide) (by decide))).trans (tail_prob m c),
     ((h c).1 2).trans (final2 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Results

end
-- ==== Proof.RefRows.lean ====
/-
  The reference's three intermediate arrays, read row by row.

  With `x` the flattened feature rows (the reference's own `reshape (transpose feat)`) and `w` the codebook, the
  reference's distance array, its soft-max array and its weighted code sums are, at the extended reals, the row
  functions of `Spec` applied to every row of `x`: a host sum from the initial value `0` is the plain sum, the
  `dot_general` against the transposed codebook is the sum over the feature axis, `negate` is the negation, and
  the maximum-reduce from −∞ is the fold of `max` over the codes.
-/
import proofs.«146969_j87600152969629_1_alg».proof.Proof.Gen.ReferenceIdeal.Read
import proofs.«146969_j87600152969629_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.Rows

open Cert.ReferenceIdeal Cert.ReferenceIdeal.Gen Cert.ReferenceIdeal.Read Cert.Codebook Idealize.ShloMosaic Idealize.ShloMosaic.ValueIdx

/-! ## The index functions of the stages, at an index given by its coordinates -/

private theorem sqx_idx (r : Fin 50176) (k : Fin 1024) (c : Fin 384) :
    idx_main_v3 (idx_main_v4 (idx_main_v8 (ix2 r k))) c = ix2 r c := by
  funext a; apply Fin.ext
  match a with
  | ⟨0, _⟩ => rfl
  | ⟨1, _⟩ => rfl

private theorem sqw_idx (r : Fin 50176) (k : Fin 1024) (c : Fin 384) :
    idx_main_v6 (idx_main_v7 (idx_main_v9 (ix2 r k))) c = ix2 k c := by
  funext a; apply Fin.ext
  match a with
  | ⟨0, _⟩ => rfl
  | ⟨1, _⟩ => rfl

private theorem dotl_idx (r : Fin 50176) (k : Fin 1024) (c : Fin 384) :
    lidx_main_v12 (ix2 r k) c = ix2 r c := by
  funext a; apply Fin.ext
  match a with
  | ⟨0, _⟩ => rfl
  | ⟨1, _⟩ => rfl

private theorem dotr_idx (r : Fin 50176) (k : Fin 1024) (c : Fin 384) :
    idx_main_v11 (ridx_main_v12 (ix2 r k) c) = ix2 k c := by
  funext a; apply Fin.ext
  match a with
  | ⟨0, _⟩ => rfl
  | ⟨1, _⟩ => rfl

/-! ## The distances -/

/-- The squared norm of row `r`, spread over the codes. -/
private theorem sqx_apply (x0 : (⟨S16x384x56x56, .f32⟩ : BufTy).Contents (Elt Ideal)) (r : Fin 50176) (k : Fin 1024) :
    val_main_v8 (F := Ideal) x0 (ix2 r k)
      = ∑ c : Fin 384, val_main_v1 (F := Ideal) x0 (ix2 r c) * val_main_v1 (F := Ideal) x0 (ix2 r c) := by
  rw [val_main_v8_apply, val_main_v4_apply, val_main_v3_apply, val_main_cst_apply, Ideal.ofBits_def,
    Ideal.ofBits_zero_f32, zero_add]
  refine Finset.sum_congr rfl fun c _ => ?_
  rw [sqx_idx, val_main_v2_apply, Ideal.mulf_def]

/-- The squared norm of code `k`, spread over the rows. -/
private theorem sqw_apply (x1 : (⟨S1024x384, .f32⟩ : BufTy).Contents (Elt Ideal)) (r : Fin 50176) (k : Fin 1024) :
    val_main_v9 (F := Ideal) x1 (ix2 r k) = ∑ c : Fin 384, x1 (ix2 k c) * x1 (ix2 k c) := by
  rw [val_main_v9_apply, val_main_v7_apply, val_main_v6_apply, val_main_cst_0_apply, Ideal.ofBits_def,
    Ideal.ofBits_zero_f32, zero_add]
  refine Finset.sum_congr rfl fun c _ => ?_
  rw [sqw_idx, val_main_v5_apply, Ideal.mulf_def]

/-- The inner product of row `r` with code `k`. -/
private theorem dot_apply (x0 : (⟨S16x384x56x56, .f32⟩ : BufTy).Contents (Elt Ideal)) (x1 : (⟨S1024x384, .f32⟩ : BufTy).Contents (Elt Ideal))
    (r : Fin 50176) (k : Fin 1024) :
    val_main_v12 (F := Ideal) x0 x1 (ix2 r k) = ∑ c : Fin 384, val_main_v1 (F := Ideal) x0 (ix2 r c) * x1 (ix2 k c) := by
  rw [val_main_v12_apply]
  refine Finset.sum_congr rfl fun c _ => ?_
  rw [dotl_idx, val_main_v11_apply, dotr_idx]

private theorem dist_apply (x0 : (⟨S16x384x56x56, .f32⟩ : BufTy).Contents (Elt Ideal)) (x1 : (⟨S1024x384, .f32⟩ : BufTy).Contents (Elt Ideal))
    (r : Fin 50176) (k : Fin 1024) :
    val_main_v15 (F := Ideal) x0 x1 (ix2 r k) = rowDist (rowOf (val_main_v1 (F := Ideal) x0) r) (book x1) k := by
  rw [val_main_v15_apply, val_main_v10_apply, val_main_v14_apply, val_main_v13_apply, val_main_cst_1_apply,
    sqx_apply, sqw_apply, dot_apply, Ideal.subf_def, Ideal.addf_def, Ideal.mulf_def, Ideal.ofBits_def]
  rfl

/-! ## The logits and their largest -/

private theorem logit_apply (x0 : (⟨S16x384x56x56, .f32⟩ : BufTy).Contents (Elt Ideal)) (x1 : (⟨S1024x384, .f32⟩ : BufTy).Contents (Elt Ideal))
    (r : Fin 50176) (k : Fin 1024) :
    val_main_v16 (F := Ideal) x0 x1 (ix2 r k) = rowLogit (rowOf (val_main_v1 (F := Ideal) x0) r) (book x1) k := by
  rw [val_main_v16_apply, Ideal.hostNegf_def, Ideal.negf_def, dist_apply]
  rfl

/-- The reduced index `r` with the code `k` put back is `(r, k)`. -/
private theorem lift_row (h : S50176x1024.Reduces [1] S50176) (r : Fin 50176) (k : Fin (S50176x1024.size 1)) :
    h.lift (ix1 r) k = ix2 r (⟨k.val, k.isLt⟩ : Fin 1024) := by
  funext c; apply Fin.ext
  fin_cases c <;> rfl

/-- The maximum-reduce over the codes, from −∞, is the fold of `max` over the row's logits. -/
private theorem redmax_apply (x0 : (⟨S16x384x56x56, .f32⟩ : BufTy).Contents (Elt Ideal)) (x1 : (⟨S1024x384, .f32⟩ : BufTy).Contents (Elt Ideal))
    (r : Fin 50176) :
    val_main_v17 (F := Ideal) x0 x1 (ix1 r)
      = (Finset.univ : Finset (Fin 1024)).fold max (Ideal.ofBits .f32 0xFF800000#32)
          (rowLogit (rowOf (val_main_v1 (F := Ideal) x0) r) (book x1)) := by
  have h : S50176x1024.Reduces [1] S50176 := by decide
  unfold val_main_v17
  rw [Host.reduce_eq_fold_single FloatOps.maximumf _ _ reducesTo_S50176x1024_S50176_d1 h h_S_]
  have hf : (val_main_v16 (F := Ideal) x0 x1 ∘ h.lift (ix1 r))
      = fun k : Fin 1024 => rowLogit (rowOf (val_main_v1 (F := Ideal) x0) r) (book x1) k :=
    funext fun k => (congrArg (val_main_v16 (F := Ideal) x0 x1) (lift_row h r k)).trans (logit_apply x0 x1 r _)
  rw [hf]
  rfl

private theorem max_apply (x0 : (⟨S16x384x56x56, .f32⟩ : BufTy).Contents (Elt Ideal)) (x1 : (⟨S1024x384, .f32⟩ : BufTy).Contents (Elt Ideal))
    (r : Fin 50176) :
    val_main_v19 (F := Ideal) x0 x1 (ix1 r) = rowMax (rowOf (val_main_v1 (F := Ideal) x0) r) (book x1) := by
  rw [val_main_v19_apply, val_main_v18_apply, val_main_cst_3_apply, redmax_apply, Ideal.maximumf_def, Ideal.ofBits_def]
  rfl

/-! ## The shifted exponentials, their sum, the weights -/

private theorem max_idx (r : Fin 50176) (k : Fin 1024) : idx_main_v20 (idx_main_v21 (ix2 r k)) = ix1 r := by
  funext a; apply Fin.ext
  match a with
  | ⟨0, _⟩ => rfl

private theorem exp_apply (x0 : (⟨S16x384x56x56, .f32⟩ : BufTy).Contents (Elt Ideal)) (x1 : (⟨S1024x384, .f32⟩ : BufTy).Contents (Elt Ideal))
    (r : Fin 50176) (k : Fin 1024) :
    val_main_v23 (F := Ideal) x0 x1 (ix2 r k) = rowExp (rowOf (val_main_v1 (F := Ideal) x0) r) (book x1) k := by
  rw [val_main_v23_apply, Ideal.hostUnary_exp_def, val_main_v22_apply, Ideal.subf_def, logit_apply,
    val_main_v21_apply, val_main_v20_apply, max_idx, max_apply]
  rfl

private theorem sum_idx (r : Fin 50176) (k : Fin 1024) : idx_main_v24 (ix1 r) k = ix2 r k := by
  funext a; apply Fin.ext
  match a with
  | ⟨0, _⟩ => rfl
  | ⟨1, _⟩ => rfl

private theorem sum_apply (x0 : (⟨S16x384x56x56, .f32⟩ : BufTy).Contents (Elt Ideal)) (x1 : (⟨S1024x384, .f32⟩ : BufTy).Contents (Elt Ideal))
    (r : Fin 50176) :
    val_main_v24 (F := Ideal) x0 x1 (ix1 r) = ∑ k : Fin 1024, rowExp (rowOf (val_main_v1 (F := Ideal) x0) r) (book x1) k := by
  rw [val_main_v24_apply, val_main_cst_4_apply, Ideal.ofBits_def, Ideal.ofBits_zero_f32, zero_add]
  refine Finset.sum_congr rfl fun k _ => ?_
  rw [sum_idx, exp_apply]

private theorem den_idx (r : Fin 50176) (k : Fin 1024) : idx_main_v25 (idx_main_v26 (ix2 r k)) = ix1 r := by
  funext a; apply Fin.ext
  match a with
  | ⟨0, _⟩ => rfl

private theorem prob_apply (x0 : (⟨S16x384x56x56, .f32⟩ : BufTy).Contents (Elt Ideal)) (x1 : (⟨S1024x384, .f32⟩ : BufTy).Contents (Elt Ideal))
    (r : Fin 50176) (k : Fin 1024) :
    val_main_v27 (F := Ideal) x0 x1 (ix2 r k) = rowProb (rowOf (val_main_v1 (F := Ideal) x0) r) (book x1) k := by
  rw [val_main_v27_apply, Ideal.hostDivf_def, exp_apply, val_main_v26_apply, val_main_v25_apply, den_idx, sum_apply]
  rfl

/-! ## The weighted code sums -/

private theorem quantl_idx (r : Fin 50176) (c : Fin 384) (k : Fin 1024) : lidx_main_v28 (ix2 r c) k = ix2 r k := by
  funext a; apply Fin.ext
  match a with
  | ⟨0, _⟩ => rfl
  | ⟨1, _⟩ => rfl

private theorem quantr_idx (r : Fin 50176) (c : Fin 384) (k : Fin 1024) : ridx_main_v28 (ix2 r c) k = ix2 k c := by
  funext a; apply Fin.ext
  match a with
  | ⟨0, _⟩ => rfl
  | ⟨1, _⟩ => rfl

private theorem quant_apply (x0 : (⟨S16x384x56x56, .f32⟩ : BufTy).Contents (Elt Ideal)) (x1 : (⟨S1024x384, .f32⟩ : BufTy).Contents (Elt Ideal))
    (r : Fin 50176) (c : Fin 384) :
    val_main_v28 (F := Ideal) x0 x1 (ix2 r c) = rowQuant (rowOf (val_main_v1 (F := Ideal) x0) r) (book x1) c := by
  rw [val_main_v28_apply]
  unfold rowQuant
  refine Finset.sum_congr rfl fun k _ => ?_
  rw [quantl_idx, quantr_idx, prob_apply]

/-! ## The three arrays -/

/-- The reference's distance array is the distances of every flattened feature row to every code. -/
theorem dist_eq (x0 : (⟨S16x384x56x56, .f32⟩ : BufTy).Contents (Elt Ideal)) (x1 : (⟨S1024x384, .f32⟩ : BufTy).Contents (Elt Ideal)) :
    val_main_v15 (F := Ideal) x0 x1 = distOf (val_main_v1 (F := Ideal) x0) x1 := by
  funext j
  obtain ⟨r, k, rfl⟩ : ∃ (r : Fin 50176) (k : Fin 1024), j = ix2 r k := ⟨j 0, j 1, eq_ix2 j⟩
  rw [distOf_ix2, dist_apply]

/-- The reference's soft-max array is the soft-max weights of every flattened feature row. -/
theorem prob_eq (x0 : (⟨S16x384x56x56, .f32⟩ : BufTy).Contents (Elt Ideal)) (x1 : (⟨S1024x384, .f32⟩ : BufTy).Contents (Elt Ideal)) :
    val_main_v27 (F := Ideal) x0 x1 = probOf (val_main_v1 (F := Ideal) x0) x1 := by
  funext j
  obtain ⟨r, k, rfl⟩ : ∃ (r : Fin 50176) (k : Fin 1024), j = ix2 r k := ⟨j 0, j 1, eq_ix2 j⟩
  rw [probOf_ix2, prob_apply]

/-- The reference's weighted code sums are those of every flattened feature row. -/
theorem quant_eq (x0 : (⟨S16x384x56x56, .f32⟩ : BufTy).Contents (Elt Ideal)) (x1 : (⟨S1024x384, .f32⟩ : BufTy).Contents (Elt Ideal)) :
    val_main_v28 (F := Ideal) x0 x1 = quantOf (val_main_v1 (F := Ideal) x0) x1 := by
  funext j
  obtain ⟨r, c, rfl⟩ : ∃ (r : Fin 50176) (c : Fin 384), j = ix2 r c := ⟨j 0, j 1, eq_ix2 j⟩
  rw [quantOf_ix2, quant_apply]

end Cert.ReferenceIdeal.Rows

end
-- ==== Proof.lean ====
/-
  The certificate of a vector-quantisation kernel against its jnp reference, over the extended reals.

  Both programs flatten the features to rows `x : [50176, 384]` (`reshape (transpose feat)`), and for every row
  and every code `w k` of the codebook `w : [1024, 384]` form the squared distance
  `(Σ x² + Σ (w k)²) − 2 · Σ x · (w k)`, the soft-max over the codes of the negated distances (shifted by the row's
  largest logit), and the soft-max-weighted sum of the codes; they return the flattened rows reshaped, the weighted
  sums and the weights in channel-first layouts, and the distances. The reference does this on whole arrays; the
  kernel does it tile by tile, 512 rows at a time over 98 grid points with the codebook resident, narrowing to
  half precision before its two matrix products — the identity at the extended reals.

  The two sides are the same tree of operations, so no algebraic law and no finiteness of the inputs is used:
  a matrix product into a zero accumulator and the host's `dot_general` are the same sum over the contracted
  axis, a lane reduction and the host's reduce are the same sum (or the same fold of `max` from −∞), `0 − d` is
  `−d`, and a row of a tile is treated exactly as the same row of the whole array (`Spec`). `KerRows` reads the
  kernel's three stored tiles, `KerArrays` the three arrays the 98 row blocks tile, `KerRun` the run and the host
  lines after the region; `RefRows` reads the reference's three intermediate arrays off its generated run. The
  three frames are the generated ones (the reference's is its run with the results dropped); the idealization
  rewrote nothing, so `preserves` asks nothing.
-/
import proofs.«146969_j87600152969629_1_alg».proof.Defs
import proofs.«146969_j87600152969629_1_alg».proof.Proof.Gen.Kernel
import proofs.«146969_j87600152969629_1_alg».proof.Proof.Gen.Kernel.Skeleton
import proofs.«146969_j87600152969629_1_alg».proof.Proof.Gen.Kernel.Launch
import proofs.«146969_j87600152969629_1_alg».proof.Proof.Gen.Kernel.Points
import proofs.«146969_j87600152969629_1_alg».proof.Proof.Gen.Kernel.Frame
import proofs.«146969_j87600152969629_1_alg».proof.Proof.Gen.KernelIdeal
import proofs.«146969_j87600152969629_1_alg».proof.Proof.Gen.KernelIdeal.Skeleton
import proofs.«146969_j87600152969629_1_alg».proof.Proof.Gen.KernelIdeal.Launch
import proofs.«146969_j87600152969629_1_alg».proof.Proof.Gen.KernelIdeal.Points
import proofs.«146969_j87600152969629_1_alg».proof.Proof.Gen.KernelIdeal.Frame
import proofs.«146969_j87600152969629_1_alg».proof.Proof.Gen.ReferenceIdeal
import proofs.«146969_j87600152969629_1_alg».proof.Proof.Gen.Pre_finite_inputs
import proofs.«146969_j87600152969629_1_alg».proof.Proof.Gen.ReferenceIdeal.Run
import proofs.«146969_j87600152969629_1_alg».proof.Proof.Gen.ReferenceIdeal.Read
import proofs.«146969_j87600152969629_1_alg».proof.Proof.KerRun
import proofs.«146969_j87600152969629_1_alg».proof.Proof.RefRows
import Idealize.ShloMosaic.Adequacy
import Idealize.ShloMosaic.Init

noncomputable section

namespace Cert.Proof

open Idealize.ShloMosaic Idealize.SL.Sem
open Cert.Codebook Cert.KernelIdeal.Arrays Cert.KernelIdeal.Results

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- From memories that agree on the two arguments both programs end with the same four arrays: the kernel's run leaves
    the row functions of its flattened rows and codebook, the reference's run the same functions of its own, and the
    flattened rows and the codebook agree because the arguments do. -/
theorem algebraic : Cert.algebraic_KernelIdeal_ReferenceIdeal := by
  intro m ρ m' ρ' _ hagree
  refine ⟨fun c => featOut (xarr m c), fun c => quantOut (quantOf (xarr m c) (warr m c)),
    fun c => probOut (probOf (xarr m c) (warr m c)), fun c => distOf (xarr m c) (warr m c),
    Cert.KernelIdeal.Results.run m ρ, ?_⟩
  refine (θ_run Cert.ReferenceIdeal.defs _ _).mono (fun _ h c => ?_)
    (Cert.ReferenceIdeal.Value.run (F := Ideal) m' ρ')
  obtain ⟨h0, h1, h2, h3, h4, h5⟩ := h c
  have hx : xarr m c = Cert.ReferenceIdeal.Read.val_main_v1 (F := Ideal)
      (m' ((c.tc : Thread Cert.ReferenceIdeal.nD Cert.ReferenceIdeal.τ).loc Cert.ReferenceIdeal.main_arg0)) := by
    rw [xarr_eq, (hagree c).1]; rfl
  have hw : warr m c
      = m' ((c.tc : Thread Cert.ReferenceIdeal.nD Cert.ReferenceIdeal.τ).loc Cert.ReferenceIdeal.main_arg1) := by
    rw [warr_eq, (hagree c).2]
  refine ⟨h0.trans ?_, h1.trans ?_, h2.trans ?_, h3.trans ?_, h4, h5⟩
  · show _ = featOut (xarr m c)
    rw [hx]; rfl
  · show _ = quantOut (quantOf (xarr m c) (warr m c))
    rw [Cert.ReferenceIdeal.Read.val_main_v30_eq, hx, hw]
    show transpose _ _ (shapeCast _ (Cert.ReferenceIdeal.Read.val_main_v28 (F := Ideal) _ _) _) _ = _
    rw [Cert.ReferenceIdeal.Rows.quant_eq]; rfl
  · show _ = probOut (probOf (xarr m c) (warr m c))
    rw [Cert.ReferenceIdeal.Read.val_main_v32_eq, hx, hw]
    show transpose _ _ (shapeCast _ (Cert.ReferenceIdeal.Read.val_main_v27 (F := Ideal) _ _) _) _ = _
    rw [Cert.ReferenceIdeal.Rows.prob_eq]; rfl
  · show _ = distOf (xarr m c) (warr m c)
    rw [Cert.ReferenceIdeal.Read.val_main_v15_eq, Cert.ReferenceIdeal.Rows.dist_eq, hx, hw]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
